-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S8388608 : Shape := ⟨1, ![8388608]⟩
abbrev S_ : Shape := ⟨0, ![]⟩
abbrev S4096 : Shape := ⟨1, ![4096]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  reducesTo_S_S_d : S_.ReducesTo [] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : IVec S8388608 32) (main_arg2 : FVec F S_ .f32) (main_arg3 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S_ .f32 := Host.absf main_arg2
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  let main_v8 : FVec F S4096 .f32 := Host.absf main_arg3
  let main_cst_2 : FVec F S_ .f32 := constant S_ .f32 0x7F800000#32
  let main_v9 : FVec F S4096 .f32 := broadcastInDim S4096 ![] bcast_S_S4096 main_cst_2
  let main_v10 : IVec S4096 1 := cmpf .olt main_v8 main_v9
  let main_c_3 : IVec S_ 1 := constantI S_ 1 1#1
  let main_v11 : IVec S_ 1 := (fun x v => Host.reduce IntOp.andi x v reducesTo_S4096_S_d0 h_S_) main_v10 main_c_3
  let main_v12 : IVec S_ 1 := andi main_v7 main_v11
  main_v12
-- ==== Kernel.lean ====
abbrev S4x2048x4096 : Shape := ⟨3, ![4, 2048, 4096]⟩
abbrev S8388608 : Shape := ⟨1, ![8388608]⟩
abbrev S_ : Shape := ⟨0, ![]⟩
abbrev S4096 : Shape := ⟨1, ![4096]⟩
abbrev S4096x2048 : Shape := ⟨2, ![4096, 2048]⟩
abbrev S4096x2048x1 : Shape := ⟨3, ![4096, 2048, 1]⟩
abbrev S4096x2048x2 : Shape := ⟨3, ![4096, 2048, 2]⟩
abbrev S4096x4096 : Shape := ⟨2, ![4096, 4096]⟩
abbrev S1x4096 : Shape := ⟨2, ![1, 4096]⟩
abbrev S8192x4096 : Shape := ⟨2, ![8192, 4096]⟩
abbrev S128x4096 : Shape := ⟨2, ![128, 4096]⟩

abbrev nBuf : Space → Nat
  | .hbm => 33
  | .vmem => 6
  | .smem => 0
  | _ => 0

abbrev bufTy : (tb : Table) → Fin (tcTables nBuf tb) → BufTy
  | .hbm, ⟨0, _⟩ => ⟨S4x2048x4096, .f32⟩
  | .hbm, ⟨1, _⟩ => ⟨S8388608, .i32⟩
  | .hbm, ⟨2, _⟩ => ⟨S_, .f32⟩
  | .hbm, ⟨3, _⟩ => ⟨S4096, .f32⟩
  | .hbm, ⟨4, _⟩ => ⟨S4096x2048, .i32⟩
  | .hbm, ⟨5, _⟩ => ⟨S_, .i32⟩
  | .hbm, ⟨6, _⟩ => ⟨S4096x2048, .i32⟩
  | .hbm, ⟨7, _⟩ => ⟨S4096x2048, .i32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S_, .i32⟩
  | .hbm, ⟨13, _⟩ => ⟨S4096x2048, .i32⟩
  | .hbm, ⟨14, _⟩ => ⟨S4096x2048, .i32⟩
  | .hbm, ⟨15, _⟩ => ⟨S_, .i32⟩
  | .hbm, ⟨16, _⟩ => ⟨S4096x2048, .i32⟩
  | .hbm, ⟨17, _⟩ => ⟨S4096x2048, .i32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048x1, .f32⟩
  | .hbm, ⟨23, _⟩ => ⟨S4096x2048x1, .f32⟩
  | .hbm, ⟨24, _⟩ => ⟨S4096x2048x2, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4096x4096, .bf16⟩
  | .hbm, ⟨29, _⟩ => ⟨S1x4096, .f32⟩
  | .hbm, ⟨30, _⟩ => ⟨S8192x4096, .f32⟩
  | .hbm, ⟨31, _⟩ => ⟨S8192x4096, .f32⟩
  | .hbm, ⟨32, _⟩ => ⟨S4x2048x4096, .f32⟩
  | .local _ .vmem, ⟨0, _⟩ => ⟨S128x4096, .f32⟩
  | .local _ .vmem, ⟨1, _⟩ => ⟨S128x4096, .f32⟩
  | .local _ .vmem, ⟨2, _⟩ => ⟨S4096x4096, .bf16⟩
  | .local _ .vmem, ⟨3, _⟩ => ⟨S1x4096, .f32⟩
  | .local _ .vmem, ⟨4, _⟩ => ⟨S128x4096, .f32⟩
  | .local _ .vmem, ⟨5, _⟩ => ⟨S128x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8388608_S4096x2048 : S8388608.ShapeCasts S4096x2048
  bcast_S_S4096x2048 : S_.BroadcastsInDim S4096x2048 (![] : Fin 0 → Fin S4096x2048.rank)
  bcast_S4096x2048_S4096x2048x1_0_1 : S4096x2048.BroadcastsInDim S4096x2048x1 (![0, 1] : Fin 2 → Fin S4096x2048x1.rank)
  concatenates_S4096x2048x1_S4096x2048x1_S4096x2048x2_d2 : Shape.Concatenates [S4096x2048x1, S4096x2048x1] S4096x2048x2 2
  shapeCasts_S4096x2048x2_S4096x4096 : S4096x2048x2.ShapeCasts S4096x4096
  bcast_S_S4096x4096 : S_.BroadcastsInDim S4096x4096 (![] : Fin 0 → Fin S4096x4096.rank)
  bitsLt_bf16_f32 : FTy.bits .bf16 < FTy.bits .f32
  shapeCasts_S4096_S1x4096 : S4096.ShapeCasts S1x4096
  shapeCasts_S4x2048x4096_S8192x4096 : S4x2048x4096.ShapeCasts S8192x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  shapeCasts_S8192x4096_S4x2048x4096 : S8192x4096.ShapeCasts S4x2048x4096
  dot_S128x4096_S4096x4096_S128x4096_1_1_0_0_n_n_wf : DotDims.WF S128x4096 S4096x4096 S128x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S8192x4096.size a
  hwx0_0 : ∀ i : grid0.Coords, EltTy.bits .f32 = 32 ∨ (Rect.block (s := S8192x4096) S128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x4096.size a ≤ S4096x4096.size a
  hwx0_1 : ∀ i : grid0.Coords, EltTy.bits .bf16 = 32 ∨ (Rect.block (s := S4096x4096) S4096x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S8192x4096.size a
  hwx0_3 : ∀ i : grid0.Coords, EltTy.bits .f32 = 32 ∨ (Rect.block (s := S8192x4096) S128x4096.size (cc0_transform_3 i) (hinb0_3 i)).WholeWords (EltTy.packing .f32)

variable [Facts₀]

def dot_S128x4096_S4096x4096_S128x4096_1_1_0_0_n_n : DotDims S128x4096 S4096x4096 S128x4096 where
  lhsContracting := [1]
  rhsContracting := [1]
  lhsNonContracting := [0]
  rhsNonContracting := [0]
  lhsBatch := []
  rhsBatch := []
  wf := dot_S128x4096_S4096x4096_S128x4096_1_1_0_0_n_n_wf

abbrev win0_0 : Pipeline.Window sig grid0 :=
  Pipeline.Window.ofSpec (Memref.whole main_v21) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S4096x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S128x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S8388608 : Shape := ⟨1, ![8388608]⟩
abbrev S_ : Shape := ⟨0, ![]⟩
abbrev S4096 : Shape := ⟨1, ![4096]⟩
abbrev S8388608x1 : Shape := ⟨2, ![8388608, 1]⟩
abbrev S8388608x2 : Shape := ⟨2, ![8388608, 2]⟩
abbrev S16777216 : Shape := ⟨1, ![16777216]⟩
abbrev S4096x4096 : Shape := ⟨2, ![4096, 4096]⟩
abbrev S1x1x4096 : Shape := ⟨3, ![1, 1, 4096]⟩

abbrev nBuf : Space → Nat
  | .hbm => 28
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S8388608, .i32⟩
  | .hbm, ⟨2, _⟩ => ⟨S_, .f32⟩
  | .hbm, ⟨3, _⟩ => ⟨S4096, .f32⟩
  | .hbm, ⟨4, _⟩ => ⟨S_, .i32⟩
  | .hbm, ⟨5, _⟩ => ⟨S8388608, .i32⟩
  | .hbm, ⟨6, _⟩ => ⟨S8388608, .i32⟩
  | .hbm, ⟨7, _⟩ => ⟨S_, .i32⟩
  | .hbm, ⟨8, _⟩ => ⟨S8388608, .i32⟩
  | .hbm, ⟨9, _⟩ => ⟨S8388608, .i32⟩
  | .hbm, ⟨10, _⟩ => ⟨S_, .i32⟩
  | .hbm, ⟨11, _⟩ => ⟨S8388608, .i32⟩
  | .hbm, ⟨12, _⟩ => ⟨S8388608, .i32⟩
  | .hbm, ⟨13, _⟩ => ⟨S8388608x1, .i32⟩
  | .hbm, ⟨14, _⟩ => ⟨S8388608x1, .i32⟩
  | .hbm, ⟨15, _⟩ => ⟨S8388608x2, .i32⟩
  | .hbm, ⟨16, _⟩ => ⟨S16777216, .i32⟩
  | .hbm, ⟨17, _⟩ => ⟨S_, .i32⟩
  | .hbm, ⟨18, _⟩ => ⟨S16777216, .i32⟩
  | .hbm, ⟨19, _⟩ => ⟨S16777216, .i32⟩
  | .hbm, ⟨20, _⟩ => ⟨S16777216, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4x2048x4096, .f32⟩
  | .hbm, ⟨25, _⟩ => ⟨S1x1x4096, .f32⟩
  | .hbm, ⟨26, _⟩ => ⟨S4x2048x4096, .f32⟩
  | .hbm, ⟨27, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  bcast_S_S8388608 : S_.BroadcastsInDim S8388608 (![] : Fin 0 → Fin S8388608.rank)
  bcast_S8388608_S8388608x1_0 : S8388608.BroadcastsInDim S8388608x1 (![0] : Fin 1 → Fin S8388608x1.rank)
  concatenates_S8388608x1_S8388608x1_S8388608x2_d1 : Shape.Concatenates [S8388608x1, S8388608x1] S8388608x2 1
  shapeCasts_S8388608x2_S16777216 : S8388608x2.ShapeCasts S16777216
  bcast_S_S16777216 : S_.BroadcastsInDim S16777216 (![] : Fin 0 → Fin S16777216.rank)
  shapeCasts_S16777216_S4096x4096 : S16777216.ShapeCasts S4096x4096
  bcast_S_S4096x4096 : S_.BroadcastsInDim S4096x4096 (![] : Fin 0 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Spec.lean ====
/-
  The function both programs compute.

  The packed weight array holds, for each output feature `o` and each pair of input features `(2j, 2j+1)`, one word
  at flat position `o * 2048 + j`; its low 4-bit field belongs to input feature `2j` and its high one to `2j + 1`.
  In the flat order of the `4096 × 4096` weight matrix, entry `(o, k)` is position `n = o * 4096 + k`: its word is
  the one at `n / 2` and its field the one of parity `n % 2`. The dequantised weight is `(field - 8) * scale`, and
  the layer is `y[b, s, o] = (Σ_k x[b, s, k] * weight[o, k]) + bias[o]`.
-/
import Idealize.ShloMosaic.PureOps.Ideal
import Idealize.ShloMosaic.Lib.ValueIdx

noncomputable section

namespace Cert.Dequant

open Idealize.ShloMosaic Idealize.ShloMosaic.ValueIdx
open scoped BigOperators

/-- The 4-bit field of a packed word chosen by a parity: the low one for `0`, the high one otherwise. -/
def field (w : BitVec 32) (par : Nat) : BitVec 32 :=
  if par = 0 then IntOp.andi w 15#32 else IntOp.andi (IntOp.shrsi .host w 4#32) 15#32

/-- Either field is a word masked by `15`. -/
theorem field_eq_andi (w : BitVec 32) (par : Nat) : ∃ u : BitVec 32, field w par = IntOp.andi u 15#32 := by
  unfold field
  split
  · exact ⟨_, rfl⟩
  · exact ⟨_, rfl⟩

/-- The signed integer a weight entry holds before scaling: its field less `8`, in 32-bit arithmetic. -/
def level (packed : (⟨1, ![8388608]⟩ : Shape).Idx → BitVec 32) (o k : Fin 4096) : BitVec 32 :=
  IntOp.subi (field (packed (ix1 ⟨(o.val * 4096 + k.val) / 2, by have := o.isLt; have := k.isLt; omega⟩))
    ((o.val * 4096 + k.val) % 2)) 8#32

/-- The same by row and column: word `k / 2` of row `o` (rows of 2048 words), field `k % 2`. -/
theorem level_eq (packed : (⟨1, ![8388608]⟩ : Shape).Idx → BitVec 32) (o k : Fin 4096) :
    level packed o k
      = IntOp.subi (field (packed (ix1 ⟨o.val * 2048 + k.val / 2, by have := o.isLt; have := k.isLt; omega⟩)) (k.val % 2)) 8#32 := by
  unfold level
  have e1 : (o.val * 4096 + k.val) / 2 = o.val * 2048 + k.val / 2 := by omega
  have e2 : (o.val * 4096 + k.val) % 2 = k.val % 2 := by omega
  have ei : (⟨(o.val * 4096 + k.val) / 2, by have := o.isLt; have := k.isLt; omega⟩ : Fin 8388608)
      = ⟨o.val * 2048 + k.val / 2, by have := o.isLt; have := k.isLt; omega⟩ := Fin.ext e1
  rw [ei, e2]

/-- The dequantised weight entry `(o, k)`. -/
def weight (packed : (⟨1, ![8388608]⟩ : Shape).Idx → BitVec 32) (scale : EReal) (o k : Fin 4096) : EReal :=
  (((level packed o k).toInt : ℝ) : EReal) * scale

/-- The layer at output position `(b, s, o)`: `(Σ_k x[b, s, k] * weight[o, k]) + bias[o]`. -/
def linearAt (x : (⟨3, ![4, 2048, 4096]⟩ : Shape).Idx → EReal) (packed : (⟨1, ![8388608]⟩ : Shape).Idx → BitVec 32)
    (scale : (⟨0, ![]⟩ : Shape).Idx → EReal) (bias : (⟨1, ![4096]⟩ : Shape).Idx → EReal)
    (b : Fin 4) (s : Fin 2048) (o : Fin 4096) : EReal :=
  (∑ k : Fin 4096, x (ix3 b s k) * weight packed (scale ix0) o k) + bias (ix1 o)

/-- The layer as an array. -/
def linear (x : (⟨3, ![4, 2048, 4096]⟩ : Shape).Idx → EReal) (packed : (⟨1, ![8388608]⟩ : Shape).Idx → BitVec 32)
    (scale : (⟨0, ![]⟩ : Shape).Idx → EReal) (bias : (⟨1, ![4096]⟩ : Shape).Idx → EReal) :
    (⟨3, ![4, 2048, 4096]⟩ : Shape).Idx → EReal :=
  fun i => linearAt x packed scale bias (i 0) (i 1) (i 2)

theorem linear_ix3 (x : (⟨3, ![4, 2048, 4096]⟩ : Shape).Idx → EReal) (packed : (⟨1, ![8388608]⟩ : Shape).Idx → BitVec 32)
    (scale : (⟨0, ![]⟩ : Shape).Idx → EReal) (bias : (⟨1, ![4096]⟩ : Shape).Idx → EReal)
    (b : Fin 4) (s : Fin 2048) (o : Fin 4096) :
    linear x packed scale bias (ix3 b s o) = linearAt x packed scale bias b s o := rfl

end Cert.Dequant

end
-- ==== Proof.RefValue.lean ====
/-
  The reference computes the layer of Proof/Spec.lean.

  The reference masks and shifts the flat packed array, interleaves the two field arrays by stacking them on a new
  trailing axis of extent 2 and flattening, subtracts the integer 8, converts, reshapes to `4096 × 4096`, scales,
  contracts `x`'s last axis against the weight's last axis and adds the bias. Entry `n` of the interleaved array is
  the field of parity `n % 2` of word `n / 2`, which is how the specification's `level` reads it.
-/
import proofs.«406813_j28630251995563_2_alg».proof.Proof.Gen.ReferenceIdeal.Run
import proofs.«406813_j28630251995563_2_alg».proof.Proof.Gen.ReferenceIdeal.Read
import proofs.«406813_j28630251995563_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.Dequant
open scoped BigOperators

/-- The two stacked field arrays read at `(n, par)`: the field of that parity of word `n`. -/
theorem stacked_apply (x1 : (⟨S8388608, .i32⟩ : BufTy).Contents (Elt Ideal)) (j : S8388608x2.Idx) :
    val_main_v8 (F := Ideal) x1 j = field (x1 (ix1 (j 0))) (j 1).val := by
  unfold val_main_v8
  by_cases h : (j 1).val = 0
  · rw [concatenate_pair_apply_left (s₁ := S8388608x1) (s₂ := S8388608x1) (1 : Fin S8388608x2.rank) _ _ _ j rfl (ix2 (j 0) (⟨0, Nat.one_pos⟩ : Fin 1))
      (fun b => by match b with | ⟨0, _⟩ => rfl | ⟨1, _⟩ => exact h.symm)]
    have e : idx_main_v6 (ix2 (j 0) (⟨0, Nat.one_pos⟩ : Fin 1)) = ix1 (j 0) :=
      funext fun a => by match a with | ⟨0, _⟩ => rfl
    rw [val_main_v6_apply, val_main_v1_apply, val_main_v0_apply, val_main_c_apply, e]
    unfold field
    rw [if_pos h]
    rfl
  · have h1 : (j 1).val = 1 := by
      have hlt : (j 1).val < 2 := (j 1).isLt
      omega
    rw [concatenate_pair_apply_right (s₁ := S8388608x1) (s₂ := S8388608x1) (1 : Fin S8388608x2.rank) _ _ _ j rfl rfl (ix2 (j 0) (⟨0, Nat.one_pos⟩ : Fin 1))
      (fun b hb => by match b with | ⟨0, _⟩ => rfl | ⟨1, _⟩ => exact absurd rfl hb)
      (by show 0 + 1 = (j 1).val; omega)]
    have e : idx_main_v7 (ix2 (j 0) (⟨0, Nat.one_pos⟩ : Fin 1)) = ix1 (j 0) :=
      funext fun a => by match a with | ⟨0, _⟩ => rfl
    rw [val_main_v7_apply, val_main_v5_apply, val_main_v3_apply, val_main_v4_apply, val_main_v2_apply,
      val_main_c_1_apply, val_main_c_0_apply, e]
    unfold field
    rw [if_neg h]
    rfl

/-- The reference's weight entry is the specification's. -/
theorem weight_apply (x1 : (⟨S8388608, .i32⟩ : BufTy).Contents (Elt Ideal)) (x2 : (⟨S_, .f32⟩ : BufTy).Contents (Elt Ideal))
    (o k : Fin 4096) :
    val_main_v15 (F := Ideal) x1 x2 (ix2 o k) = weight x1 (x2 ix0) o k := by
  rw [val_main_v15_apply, val_main_v13_apply, val_main_v14_apply, val_main_v12_apply, val_main_v11_apply,
    val_main_v10_apply, val_main_c_2_apply, val_main_v9_apply, stacked_apply]
  rfl

/-- THE REFERENCE'S RESULT is the layer of the specification. -/
theorem result_eq (x0 : (⟨S4x2048x4096, .f32⟩ : BufTy).Contents (Elt Ideal)) (x1 : (⟨S8388608, .i32⟩ : BufTy).Contents (Elt Ideal))
    (x2 : (⟨S_, .f32⟩ : BufTy).Contents (Elt Ideal)) (x3 : (⟨S4096, .f32⟩ : BufTy).Contents (Elt Ideal)) :
    val_main_v19 (F := Ideal) x0 x1 x2 x3 = linear x0 x1 x2 x3 := by
  funext i
  obtain ⟨b, s, o, rfl⟩ : ∃ (b : Fin 4) (s : Fin 2048) (o : Fin 4096), i = ix3 b s o := ⟨i 0, i 1, i 2, eq_ix3 i⟩
  rw [linear_ix3, val_main_v19_apply, val_main_v16_apply, val_main_v18_apply, val_main_v17_apply]
  unfold linearAt
  refine congrArg₂ (· + ·) (Finset.sum_congr rfl fun k _ => ?_)
    (congrArg x3 (funext fun a => by match a with | ⟨0, _⟩ => rfl))
  have er : ridx_main_v16 (ix3 b s o) k = ix2 o k := funext fun a => by match a with | ⟨0, _⟩ => rfl | ⟨1, _⟩ => rfl
  have el : lidx_main_v16 (ix3 b s o) k = ix3 b s k := funext fun a => by match a with | ⟨0, _⟩ => rfl | ⟨1, _⟩ => rfl | ⟨2, _⟩ => rfl
  rw [er, el, weight_apply]

end Cert.ReferenceIdeal.RefValue

end
-- ==== Proof.Payload.lean ====
/-
  What the kernel body stores, entry by entry.

  At a grid point the body loads a `128 × 4096` block of rows of `x`, the whole `4096 × 4096` weight (row `n` holds
  output feature `n`) and the `1 × 4096` bias row, contracts the two trailing axes into a zero accumulator and adds
  the bias row to every row. At the exact reals the changes of float format are the identity and the product into a
  zero accumulator is the plain sum, so entry `(p, q)` of what it stores is `(Σ_k x[p, k] * w[q, k]) + bias[0, q]`.
-/
import proofs.«406813_j28630251995563_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen
open Idealize.ShloMosaic Idealize.ShloMosaic.ValueIdx
open scoped BigOperators

/-- The contraction's left operand is read at the output's row and the contraction index … -/
theorem lhs_row (i : S128x4096.Idx) (q : dot_S128x4096_S4096x4096_S128x4096_1_1_0_0_n_n.contr.Idx) :
    (dot_S128x4096_S4096x4096_S128x4096_1_1_0_0_n_n.lhsIdx i q 0).val = (i 0).val := by
  unfold DotDims.lhsIdx
  rw [dif_neg (show ¬(0 : Fin S128x4096.rank) ∈ dot_S128x4096_S4096x4096_S128x4096_1_1_0_0_n_n.lhsBatch by decide),
    dif_pos (show (0 : Fin S128x4096.rank) ∈ dot_S128x4096_S4096x4096_S128x4096_1_1_0_0_n_n.lhsNonContracting by decide)]
  rfl
theorem lhs_contr (i : S128x4096.Idx) (q : dot_S128x4096_S4096x4096_S128x4096_1_1_0_0_n_n.contr.Idx) :
    (dot_S128x4096_S4096x4096_S128x4096_1_1_0_0_n_n.lhsIdx i q 1).val = (q ⟨0, by decide⟩).val :=
  dot_S128x4096_S4096x4096_S128x4096_1_1_0_0_n_n.lhsIdx_val_of_single rfl i q
/-- … and the right operand at the output's column (a ROW of the weight) and the contraction index. -/
theorem rhs_row (i : S128x4096.Idx) (q : dot_S128x4096_S4096x4096_S128x4096_1_1_0_0_n_n.contr.Idx) :
    (dot_S128x4096_S4096x4096_S128x4096_1_1_0_0_n_n.rhsIdx i q 0).val = (i 1).val := by
  unfold DotDims.rhsIdx
  rw [dif_neg (show ¬(0 : Fin S4096x4096.rank) ∈ dot_S128x4096_S4096x4096_S128x4096_1_1_0_0_n_n.rhsBatch by decide),
    dif_pos (show (0 : Fin S4096x4096.rank) ∈ dot_S128x4096_S4096x4096_S128x4096_1_1_0_0_n_n.rhsNonContracting by decide)]
  rfl
theorem rhs_contr (i : S128x4096.Idx) (q : dot_S128x4096_S4096x4096_S128x4096_1_1_0_0_n_n.contr.Idx) :
    (dot_S128x4096_S4096x4096_S128x4096_1_1_0_0_n_n.rhsIdx i q 1).val = (q ⟨0, by decide⟩).val :=
  dot_S128x4096_S4096x4096_S128x4096_1_1_0_0_n_n.rhsIdx_val_of_single rfl i q

/-- The product of the block of rows with the weight, into the zero accumulator, at `(p, q)`: the sum over the shared
    trailing axis. -/
theorem matmul_entry (a : FVec Ideal S128x4096 .bf16) (w : FVec Ideal S4096x4096 .bf16) (p : Fin 128) (q : Fin 4096) :
    matmul dot_S128x4096_S4096x4096_S128x4096_1_1_0_0_n_n none a w (constant (F := Ideal) S128x4096 .f32 0x00000000#32) (ix2 p q)
      = ∑ k : Fin 4096, a (ix2 p k) * w (ix2 q k) := by
  simp only [matmul]
  rw [Ideal.matmul_constant_zero_apply,
    ← Equiv.sum_comp (contrEquiv1 dot_S128x4096_S4096x4096_S128x4096_1_1_0_0_n_n 4096 rfl rfl).symm]
  refine Finset.sum_congr rfl fun k _ => ?_
  have hk := contrEquiv1_symm_val dot_S128x4096_S4096x4096_S128x4096_1_1_0_0_n_n 4096 rfl rfl k
  have el : dot_S128x4096_S4096x4096_S128x4096_1_1_0_0_n_n.lhsIdx (ix2 p q)
      ((contrEquiv1 dot_S128x4096_S4096x4096_S128x4096_1_1_0_0_n_n 4096 rfl rfl).symm k) = ix2 p k :=
    funext fun b => Fin.ext (by
      match b with
      | ⟨0, _⟩ => exact lhs_row _ _
      | ⟨1, _⟩ => exact (lhs_contr _ _).trans hk)
  have er : dot_S128x4096_S4096x4096_S128x4096_1_1_0_0_n_n.rhsIdx (ix2 p q)
      ((contrEquiv1 dot_S128x4096_S4096x4096_S128x4096_1_1_0_0_n_n 4096 rfl rfl).symm k) = ix2 q k :=
    funext fun b => Fin.ext (by
      match b with
      | ⟨0, _⟩ => exact rhs_row _ _
      | ⟨1, _⟩ => exact (rhs_contr _ _).trans hk)
  rw [el, er]

/-- The bias row broadcast down the block, at `(p, q)`: the row's entry `q`. -/
theorem bias_entry (b : FVec Ideal S1x4096 .f32) (p : Fin 128) (q : Fin 4096) :
    broadcastTo S128x4096 b broadcasts_S1x4096_S128x4096 (ix2 p q) = b (ix2 (0 : Fin 1) q) :=
  broadcastTo_apply b broadcasts_S1x4096_S128x4096 (ix2 p q) (ix2 (0 : Fin 1) q) (fun a => by
    match a with
    | ⟨0, _⟩ => show 0 = if (1 : Nat) = 1 then 0 else _; rw [if_pos rfl]
    | ⟨1, _⟩ => show q.val = if (4096 : Nat) = 1 then 0 else q.val; rw [if_neg (by decide)])

/-- WHAT THE BODY STORES at `(p, q)`. -/
theorem stored_entry (v0 : Vec Ideal S128x4096 .f32) (v3 : Vec Ideal S4096x4096 .bf16) (v6 : Vec Ideal S1x4096 .f32)
    (p : Fin 128) (q : Fin 4096) :
    k0_pay1 (F := Ideal) v0 v3 v6 (ix2 p q) = (∑ k : Fin 4096, v0 (ix2 p k) * v3 (ix2 q k)) + v6 (ix2 (0 : Fin 1) q) := by
  unfold k0_pay1
  rw [addf_apply, matmul_entry, bias_entry, shapeCast_self, shapeCast_self, shapeCast_self]
  rfl

end Cert.KernelIdeal.Body

end
-- ==== Proof.KernelBlocks.lean ====
/-
  From the grid's blocks to the whole `8192 × 4096` array.

  Grid point `t` (of 64) stages rows `128 t … 128 t + 127` of `x` (all 4096 columns), the whole weight and the whole
  bias row, and writes back rows `128 t … 128 t + 127` of the result. By Proof/Payload.lean entry `(p, q)` of what it
  stores is `(Σ_k xblock[p, k] * w[q, k]) + bias[0, q]`, which is entry `(128 t + p, q)` of ONE function of the three
  staged arrays, `rowsOut`. Every row `r` lies in the block of point `r / 128`, so the blocks cover the array and it
  ends holding `rowsOut`.
-/
import proofs.«406813_j28630251995563_2_alg».proof.Proof.Gen.KernelIdeal.Frame
import proofs.«406813_j28630251995563_2_alg».proof.Proof.Payload
import Idealize.ShloMosaic.Lib.Pipeline.Value

set_option maxRecDepth 16384

noncomputable section

namespace Cert.KernelIdeal.Blocks

open Cert.KernelIdeal Cert.KernelIdeal.Gen Cert.KernelIdeal.Body
open Idealize.ShloMosaic Idealize.ShloMosaic.TcCoe Idealize.SL.Sem Idealize.ShloMosaic.ValueIdx
open Idealize.ShloMosaic.Pipeline (Dat)
open scoped BigOperators

/-- Entry `(r, n)` of the product of the rows with the weight's rows, plus the bias row. -/
def rowsOutAt (X : Vec Ideal S8192x4096 .f32) (W : Vec Ideal S4096x4096 .bf16) (B : Vec Ideal S1x4096 .f32)
    (r : Fin 8192) (n : Fin 4096) : EReal :=
  (∑ k : Fin 4096, X (ix2 r k) * W (ix2 n k)) + B (ix2 (0 : Fin 1) n)

/-- The whole `8192 × 4096` result as one function of the three staged arrays. -/
def rowsOut (X : Vec Ideal S8192x4096 .f32) (W : Vec Ideal S4096x4096 .bf16) (B : Vec Ideal S1x4096 .f32) :
    Vec Ideal S8192x4096 .f32 :=
  fun i => rowsOutAt X W B (i 0) (i 1)

theorem rowsOut_ix2 (X : Vec Ideal S8192x4096 .f32) (W : Vec Ideal S4096x4096 .bf16) (B : Vec Ideal S1x4096 .f32)
    (r : Fin 8192) (n : Fin 4096) : rowsOut X W B (ix2 r n) = rowsOutAt X W B r n := rfl

variable (m : (ℓ : Loc nD τ sig) → Buf (Elt Ideal) ℓ) (ρ : Dev nD → PrngReg)

/-- The three staged arrays as the region finds them, at their literal types. -/
abbrev xarr (c : Dev nD) : Vec Ideal S8192x4096 .f32 := V m c main_v21
abbrev warr (c : Dev nD) : Vec Ideal S4096x4096 .bf16 := V m c main_v19
abbrev barr (c : Dev nD) : Vec Ideal S1x4096 .f32 := V m c main_v20

/-- The three input blocks at a point, at their literal types. -/
abbrev xblk (c : Dev nD) (t : Fin cfg0.N) : Vec Ideal S128x4096 .f32 := iblk m c 0 t
abbrev wblk (c : Dev nD) (t : Fin cfg0.N) : Vec Ideal S4096x4096 .bf16 := iblk m c 1 t
abbrev bblk (c : Dev nD) (t : Fin cfg0.N) : Vec Ideal S1x4096 .f32 := iblk m c 2 t

theorem hz : (![0, 0] : Fin 2 → Nat) = fun _ => 0 := funext fun a => by fin_cases a <;> rfl

/-- The printed index maps over the grid: the row windows sit at block row `t`, column block `0`; the weight and the
    bias at block `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The block of rows at point `t`: row `p` is row `128 t + p` of `x`. -/
theorem xblk_apply (c : Dev nD) (t : Fin cfg0.N) (p : Fin 128) (k : Fin 4096) (r : Fin 8192) (hr : r.val = t.val * 128 + p.val) :
    xblk m c t (ix2 p k) = xarr m c (ix2 r k) := by
  obtain ⟨e0, e1, -⟩ := idx_facts t
  show V m c main_v21 (((cfg0.win 0).blk t).view.emb (ix2 p k)) = V m c main_v21 (ix2 r k)
  refine congrArg (V m c main_v21) (funext fun a => Fin.ext ?_)
  match a with
  | ⟨0, _⟩ => show win0_0.index t (0 : Fin 2) * 128 + 1 * p.val = r.val; omega
  | ⟨1, _⟩ => show win0_0.index t (1 : Fin 2) * 4096 + 1 * k.val = k.val; omega

/-- The weight's block is the weight. -/
theorem wblk_apply (c : Dev nD) (t : Fin cfg0.N) (q k : Fin 4096) :
    wblk m c t (ix2 q k) = warr m c (ix2 q k) := by
  obtain ⟨-, -, e2, e3, -⟩ := idx_facts t
  show V m c main_v19 (((cfg0.win 1).blk t).view.emb (ix2 q k)) = V m c main_v19 (ix2 q k)
  refine congrArg (V m c main_v19) (funext fun a => Fin.ext ?_)
  match a with
  | ⟨0, _⟩ => show win0_1.index t (0 : Fin 2) * 4096 + 1 * q.val = q.val; omega
  | ⟨1, _⟩ => show win0_1.index t (1 : Fin 2) * 4096 + 1 * k.val = k.val; omega

/-- The bias row's block is the bias row. -/
theorem bblk_apply (c : Dev nD) (t : Fin cfg0.N) (q : Fin 4096) :
    bblk m c t (ix2 (0 : Fin 1) q) = barr m c (ix2 (0 : Fin 1) q) := by
  obtain ⟨-, -, -, -, e4, e5, -⟩ := idx_facts t
  show V m c main_v20 (((cfg0.win 2).blk t).view.emb (ix2 (0 : Fin 1) q)) = V m c main_v20 (ix2 (0 : Fin 1) q)
  refine congrArg (V m c main_v20) (funext fun a => Fin.ext ?_)
  match a with
  | ⟨0, _⟩ => show win0_2.index t (0 : Fin 2) * 1 + 1 * 0 = 0; omega
  | ⟨1, _⟩ => show win0_2.index t (1 : Fin 2) * 4096 + 1 * q.val = q.val; omega

/-- WHAT POINT `t` WRITES BACK is block `t` of `rowsOut` of the three staged arrays. -/
theorem flushed_eq (c : Dev nD) (t : Fin cfg0.N) :
    (dats m 0 c).flushed 3 t
      = ((cfg0.win 3).blk t).view.read (Elt Ideal) (rowsOut (xarr m c) (warr m c) (barr m c)) := by
  show (cfg0.win 3).cut (grid0.coords t) ((dats m 0 c).after 3 t) = _
  rw [after0_3]
  unfold out0_3
  rw [View.canon_unit_zero hz]
  simp only [View.ld_unit_zero (S := S128x4096) hz, View.ld_unit_zero (S := S4096x4096) hz, View.ld_unit_zero (S := S1x4096) hz]
  obtain ⟨-, -, -, -, -, -, e6, e7⟩ := idx_facts t
  funext j
  obtain ⟨p, q, rfl⟩ : ∃ (p : Fin 128) (q : Fin 4096), j = ix2 p q := ⟨j 0, j 1, eq_ix2 j⟩
  have ht : t.val < 64 := Nat.lt_of_lt_of_eq t.isLt N_0
  have hemb : ((cfg0.win 3).blk t).view.emb (ix2 p q)
      = ix2 (⟨t.val * 128 + p.val, by have := p.isLt; omega⟩ : Fin 8192) q := by
    funext a; apply Fin.ext
    match a with
    | ⟨0, _⟩ => show win0_3.index t (0 : Fin 2) * 128 + 1 * p.val = t.val * 128 + p.val; omega
    | ⟨1, _⟩ => show win0_3.index t (1 : Fin 2) * 4096 + 1 * q.val = q.val; omega
  show k0_pay1 (F := Ideal) (xblk m c t) (wblk m c t) (bblk m c t) (ix2 p q)
    = rowsOut (xarr m c) (warr m c) (barr m c) (((cfg0.win 3).blk t).view.emb (ix2 p q))
  rw [hemb, rowsOut_ix2, stored_entry]
  unfold rowsOutAt
  refine congrArg₂ (· + ·) (Finset.sum_congr rfl fun k _ => ?_) (bblk_apply m c t q)
  rw [xblk_apply m c t p k ⟨t.val * 128 + p.val, by have := p.isLt; omega⟩ rfl, wblk_apply]

/-- An index of the array is in point `t`'s block iff each coordinate is in the block's range on its axis. -/
theorem mem_blk (t : Fin cfg0.N) (i : S8192x4096.Idx) :
    i ∈ ((cfg0.win 3).blk t).view.set
      ↔ ∀ a : Fin 2, win0_3.index t a * S128x4096.size a ≤ (i a).val ∧ (i a).val < win0_3.index t a * S128x4096.size a + S128x4096.size a := by
  show i ∈ ((View.whole main_v22).slice (win0_3.rect t)).set ↔ _
  rw [View.set_slice_whole, Rect.mem_set_unit]
  exact Iff.rfl

/-- THE COVER: row `r` is in the block of point `r / 128`. -/
theorem cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  let t : Fin cfg0.N := ⟨(i 0).val / 128, by rw [show cfg0.N = 64 from N_0]; omega⟩
  obtain ⟨-, -, -, -, -, -, e6, e7⟩ := idx_facts t
  have htv : t.val = (i 0).val / 128 := rfl
  refine ⟨t, flush0_3 t, ?_⟩
  rw [mem_blk]
  intro a
  match a with
  | ⟨0, _⟩ => show win0_3.index t (0 : Fin 2) * 128 ≤ (i 0).val ∧ (i 0).val < win0_3.index t (0 : Fin 2) * 128 + 128; omega
  | ⟨1, _⟩ => show win0_3.index t (1 : Fin 2) * 4096 ≤ (i 1).val ∧ (i 1).val < win0_3.index t (1 : Fin 2) * 4096 + 4096; omega

/-- THE ARRAY after the region: `rowsOut` of the three staged arrays. -/
theorem final (c : Dev nD) : (dats m 0 c).arrAt 3 cfg0.N = rowsOut (xarr m c) (warr m c) (barr m c) :=
  (dats m 0 c).arrAt_eq_of_cover 3 (rowsOut (xarr m c) (warr m c) (barr m c)) (fun t _ => flushed_eq m c t) cover

end Cert.KernelIdeal.Blocks

end
-- ==== Proof.Nibble.lean ====
/-
  The one pointwise law that joins the two dequantisations.

  A packed word `w` holds two 4-bit fields: the low one `w &&& 15` and the high one `(w >>ₛ 4) &&& 15`. Either is a
  word `v` with `0 ≤ v ≤ 15`. One program converts the field to a float and subtracts the float `8.0`; the other
  subtracts the integer `8` in 32-bit arithmetic and converts the difference. At the exact reals a signed 32-bit
  word converts to its integer value, `8.0` is the real `8`, and `v - 8` does not wrap because `-8 ≤ v - 8 ≤ 7`:
  both are the real number `v - 8`.
-/
import Idealize.ShloMosaic.PureOps.Ideal

noncomputable section

namespace Cert.Dequant

open Idealize.ShloMosaic

/-- The float pattern `0x41000000` (`8.0`) denotes the real `8`. -/
theorem ofBits_eight : Ideal.ofBits .f32 0x41000000#32 = ((8 : ℝ) : EReal) := by
  simp [Ideal.ofBits, Ideal.ieee, -EReal.coe_mul]; norm_num

/-- A word masked by `15` is at most `15`. -/
theorem and15_le (w : BitVec 32) : (w &&& 15#32).toNat ≤ 15 := by
  rw [BitVec.toNat_and]
  exact Nat.and_le_right

/-- Read signed, a word masked by `15` is its unsigned value. -/
theorem and15_toInt (w : BitVec 32) : (w &&& 15#32).toInt = ((w &&& 15#32).toNat : Int) := by
  have h := and15_le w
  rw [BitVec.toInt_eq_toNat_of_lt (by omega)]

/-- Subtracting `8` from a word masked by `15` does not wrap: read signed the difference is the field less `8`. -/
theorem and15_sub8_toInt (w : BitVec 32) : ((w &&& 15#32) - 8#32).toInt = ((w &&& 15#32).toNat : Int) - 8 := by
  have h := and15_le w
  rw [BitVec.toInt_sub, and15_toInt]
  have h8 : (8#32 : BitVec 32).toInt = 8 := by decide
  rw [h8]
  have hb : ((2 : Int) ^ 32) = 4294967296 := by norm_num
  rw [Int.bmod_def]
  omega

/-- THE LAW: converting a 4-bit field and subtracting the float `8.0` is converting the field less the integer `8`. -/
theorem sitofp_sub_eight (w : BitVec 32) :
    (((IntOp.andi w 15#32).toInt : ℝ) : EReal) - Ideal.ofBits .f32 0x41000000#32
      = (((IntOp.subi (IntOp.andi w 15#32) 8#32).toInt : ℝ) : EReal) := by
  show ((((w &&& 15#32).toInt : ℝ) : EReal)) - _ = (((((w &&& 15#32) - 8#32).toInt : ℝ)) : EReal)
  rw [ofBits_eight, and15_sub8_toInt, and15_toInt, ← EReal.coe_sub]
  push_cast
  rfl

end Cert.Dequant

end
-- ==== Proof.HostTerms.lean ====
/-
  The kernel's host-side terms, and each read at an entry.

  Before the region the host reshapes the packed words to `4096 × 2048` (row `o` holds the words of output feature
  `o`), takes the low and the high field of every word, converts each to a float and subtracts `8.0`, stacks the two
  on a new trailing axis of extent 2 and flattens that axis into the columns — so column `k` of row `o` comes from
  word `k / 2` of the row, field `k % 2` —, scales, and changes the float format (the identity at the exact reals).
  It also views `x` as `8192 × 4096` (row `r` is `x[r / 2048, r % 2048, :]`) and the bias as one row; after the region
  it views the `8192 × 4096` result as `4 × 2048 × 4096`.
  Read at an entry, the weight is the specification's `weight`, by the law of Proof/Nibble.lean.
-/
import proofs.«406813_j28630251995563_2_alg».proof.Proof.Gen.KernelIdeal
import proofs.«406813_j28630251995563_2_alg».proof.Proof.Spec
import proofs.«406813_j28630251995563_2_alg».proof.Proof.Nibble
import Idealize.ShloMosaic.Lib.Pipeline.Value
import Idealize.ShloMosaic.Lib.ValueIdx

noncomputable section

namespace Cert.KernelIdeal.Prefix

open Cert.KernelIdeal Cert.KernelIdeal.Gen
open Idealize.ShloMosaic Idealize.ShloMosaic.ValueIdx Cert.Dequant
open scoped BigOperators

section Terms
variable {F : FTy → Type} [FloatOps F]

/-- The packed words as `4096 × 2048`. -/
def words (x1 : (⟨S8388608, .i32⟩ : BufTy).Contents (Elt F)) : (⟨S4096x2048, .i32⟩ : BufTy).Contents (Elt F) :=
  shapeCast S4096x2048 x1 shapeCasts_S8388608_S4096x2048

/-- Every word's low field as a float, less `8.0`. -/
def lowF (x1 : (⟨S8388608, .i32⟩ : BufTy).Contents (Elt F)) : (⟨S4096x2048, .f32⟩ : BufTy).Contents (Elt F) :=
  subf (sitofp .f32 (andi (words x1) (broadcastInDim S4096x2048 ![] bcast_S_S4096x2048 (constantI S_ 32 15#32))))
    (broadcastInDim S4096x2048 ![] bcast_S_S4096x2048 (constant S_ .f32 0x41000000#32))

/-- Every word's high field as a float, less `8.0`. -/
def highF (x1 : (⟨S8388608, .i32⟩ : BufTy).Contents (Elt F)) : (⟨S4096x2048, .f32⟩ : BufTy).Contents (Elt F) :=
  subf (sitofp .f32 (andi (Host.shrsi (words x1) (broadcastInDim S4096x2048 ![] bcast_S_S4096x2048 (constantI S_ 32 4#32)))
      (broadcastInDim S4096x2048 ![] bcast_S_S4096x2048 (constantI S_ 32 15#32))))
    (broadcastInDim S4096x2048 ![] bcast_S_S4096x2048 (constant S_ .f32 0x41000000#32))

/-- The two stacked on a trailing axis of extent 2. -/
def stackedF (x1 : (⟨S8388608, .i32⟩ : BufTy).Contents (Elt F)) : (⟨S4096x2048x2, .f32⟩ : BufTy).Contents (Elt F) :=
  concatenate S4096x2048x2 2
    [⟨S4096x2048x1, broadcastInDim S4096x2048x1 ![0, 1] bcast_S4096x2048_S4096x2048x1_0_1 (lowF x1)⟩,
     ⟨S4096x2048x1, broadcastInDim S4096x2048x1 ![0, 1] bcast_S4096x2048_S4096x2048x1_0_1 (highF x1)⟩]
    concatenates_S4096x2048x1_S4096x2048x1_S4096x2048x2_d2

/-- The weight the region's second window stages. -/
def hostWeight (x1 : (⟨S8388608, .i32⟩ : BufTy).Contents (Elt F)) (x2 : (⟨S_, .f32⟩ : BufTy).Contents (Elt F)) :
    (⟨S4096x4096, .bf16⟩ : BufTy).Contents (Elt F) :=
  truncf .bf16 (mulf (shapeCast S4096x4096 (stackedF x1) shapeCasts_S4096x2048x2_S4096x4096)
    (broadcastInDim S4096x4096 ![] bcast_S_S4096x4096 x2)) bitsLt_bf16_f32

end Terms

/-! ## Read at an entry, at the exact reals -/

/-- Word `j` of row `o` is flat word `o * 2048 + j`. -/
theorem words_apply (x1 : (⟨S8388608, .i32⟩ : BufTy).Contents (Elt Ideal)) (o : Fin 4096) (j : Fin 2048) :
    words (F := Ideal) x1 (ix2 o j) = x1 (ix1 ⟨o.val * 2048 + j.val, by have := o.isLt; have := j.isLt; omega⟩) :=
  shapeCast_apply x1 shapeCasts_S8388608_S4096x2048 (ix2 o j) (ix1 ⟨o.val * 2048 + j.val, by have := o.isLt; have := j.isLt; omega⟩)
    (by rewrite [Shape.rowMajor_val_one, Shape.rowMajor_val_two]; show o.val * 2048 + j.val = o.val * 2048 + j.val; rfl)

/-- A splat integer constant reads its word. -/
theorem splatI_apply (v : BitVec 32) (i : S4096x2048.Idx) :
    broadcastInDim S4096x2048 ![] bcast_S_S4096x2048 (constantI S_ 32 v) i = v :=
  broadcastInDim_apply _ bcast_S_S4096x2048 (constantI S_ 32 v) i ix0 (fun a => a.elim0)

/-- A splat float constant reads its value. -/
theorem splatF_apply (v : BitVec 32) (i : S4096x2048.Idx) :
    broadcastInDim S4096x2048 ![] bcast_S_S4096x2048 (constant (F := Ideal) S_ .f32 v) i = Ideal.ofBits .f32 v :=
  broadcastInDim_apply _ bcast_S_S4096x2048 (constant (F := Ideal) S_ .f32 v) i ix0 (fun a => a.elim0)

/-- The low field of word `(o, j)`, converted, less `8.0`. -/
theorem lowF_apply (x1 : (⟨S8388608, .i32⟩ : BufTy).Contents (Elt Ideal)) (o : Fin 4096) (j : Fin 2048) :
    lowF (F := Ideal) x1 (ix2 o j)
      = (((IntOp.andi (x1 (ix1 ⟨o.val * 2048 + j.val, by have := o.isLt; have := j.isLt; omega⟩)) 15#32).toInt : ℝ) : EReal)
        - Ideal.ofBits .f32 0x41000000#32 := by
  unfold lowF
  rw [subf_apply, sitofp_apply, splatF_apply]
  show (((IntOp.andi (words (F := Ideal) x1 (ix2 o j))
    (broadcastInDim S4096x2048 ![] bcast_S_S4096x2048 (constantI S_ 32 15#32) (ix2 o j))).toInt : ℝ) : EReal) - _ = _
  rw [words_apply, splatI_apply]

/-- The high field of word `(o, j)`, converted, less `8.0`. -/
theorem highF_apply (x1 : (⟨S8388608, .i32⟩ : BufTy).Contents (Elt Ideal)) (o : Fin 4096) (j : Fin 2048) :
    highF (F := Ideal) x1 (ix2 o j)
      = (((IntOp.andi (IntOp.shrsi .host (x1 (ix1 ⟨o.val * 2048 + j.val, by have := o.isLt; have := j.isLt; omega⟩)) 4#32) 15#32).toInt : ℝ) : EReal)
        - Ideal.ofBits .f32 0x41000000#32 := by
  unfold highF
  rw [subf_apply, sitofp_apply, splatF_apply]
  show (((IntOp.andi (IntOp.shrsi .host (words (F := Ideal) x1 (ix2 o j))
      (broadcastInDim S4096x2048 ![] bcast_S_S4096x2048 (constantI S_ 32 4#32) (ix2 o j)))
    (broadcastInDim S4096x2048 ![] bcast_S_S4096x2048 (constantI S_ 32 15#32) (ix2 o j))).toInt : ℝ) : EReal) - _ = _
  rw [words_apply, splatI_apply, splatI_apply]

/-- A `4096 × 2048` array given a trailing unit axis reads its entry. -/
theorem unitAxis_apply (y : (⟨S4096x2048, .f32⟩ : BufTy).Contents (Elt Ideal)) (o : Fin 4096) (j : Fin 2048) :
    broadcastInDim S4096x2048x1 ![0, 1] bcast_S4096x2048_S4096x2048x1_0_1 y (ix3 o j (0 : Fin 1)) = y (ix2 o j) :=
  broadcastInDim_apply _ bcast_S4096x2048_S4096x2048x1_0_1 y (ix3 o j (0 : Fin 1)) (ix2 o j) (fun a => by
    match a with
    | ⟨0, _⟩ => show o.val = if (4096 : Nat) = 1 then 0 else o.val; rw [if_neg (by decide)]
    | ⟨1, _⟩ => show j.val = if (2048 : Nat) = 1 then 0 else j.val; rw [if_neg (by decide)])

/-- The stacked array at `(o, j, par)`: the field of that parity of word `(o, j)`, less `8`, as a real. -/
theorem stackedF_apply (x1 : (⟨S8388608, .i32⟩ : BufTy).Contents (Elt Ideal)) (o : Fin 4096) (j : Fin 2048) (par : Fin 2) :
    stackedF (F := Ideal) x1 (ix3 o j par)
      = (((IntOp.subi (field (x1 (ix1 ⟨o.val * 2048 + j.val, by have := o.isLt; have := j.isLt; omega⟩)) par.val) 8#32).toInt : ℝ) : EReal) := by
  unfold stackedF
  by_cases h : par.val = 0
  · rw [concatenate_pair_apply_left (s₁ := S4096x2048x1) (s₂ := S4096x2048x1) (2 : Fin S4096x2048x2.rank) _ _ _ (ix3 o j par) rfl
      (ix3 o j (0 : Fin 1)) (fun b => by match b with | ⟨0, _⟩ => rfl | ⟨1, _⟩ => rfl | ⟨2, _⟩ => exact h.symm)]
    rw [unitAxis_apply, lowF_apply, sitofp_sub_eight]
    unfold field
    rw [if_pos h]
  · have h1 : par.val = 1 := by have := par.isLt; omega
    rw [concatenate_pair_apply_right (s₁ := S4096x2048x1) (s₂ := S4096x2048x1) (2 : Fin S4096x2048x2.rank) _ _ _ (ix3 o j par) rfl rfl
      (ix3 o j (0 : Fin 1)) (fun b hb => by match b with | ⟨0, _⟩ => rfl | ⟨1, _⟩ => rfl | ⟨2, _⟩ => exact absurd rfl hb)
      (by show 0 + 1 = par.val; omega)]
    rw [unitAxis_apply, highF_apply, sitofp_sub_eight]
    unfold field
    rw [if_neg h]

/-- THE WEIGHT ENTRY: the host's weight at `(o, k)` is the specification's. -/
theorem hostWeight_apply (x1 : (⟨S8388608, .i32⟩ : BufTy).Contents (Elt Ideal)) (x2 : (⟨S_, .f32⟩ : BufTy).Contents (Elt Ideal))
    (o k : Fin 4096) :
    hostWeight (F := Ideal) x1 x2 (ix2 o k) = weight x1 (x2 ix0) o k := by
  unfold hostWeight
  rw [truncf_apply, mulf_apply,
    shapeCast_apply (stackedF (F := Ideal) x1) shapeCasts_S4096x2048x2_S4096x4096 (ix2 o k)
      (ix3 o (⟨k.val / 2, by have := k.isLt; omega⟩ : Fin 2048) (⟨k.val % 2, by omega⟩ : Fin 2))
      (by rewrite [Shape.rowMajor_val_three, Shape.rowMajor_val_two]
          show (o.val * 2048 + k.val / 2) * 2 + k.val % 2 = o.val * 4096 + k.val
          omega),
    stackedF_apply, broadcastInDim_apply _ bcast_S_S4096x4096 x2 (ix2 o k) ix0 (fun a => a.elim0)]
  unfold weight
  rw [level_eq]

/-- Row `r` of `x` viewed as `8192 × 4096` is `x[r / 2048, r % 2048, :]`. -/
theorem rows_apply (x0 : (⟨S4x2048x4096, .f32⟩ : BufTy).Contents (Elt Ideal)) (r : Fin 8192) (k : Fin 4096) :
    shapeCast S8192x4096 x0 shapeCasts_S4x2048x4096_S8192x4096 (ix2 r k)
      = x0 (ix3 (⟨r.val / 2048, by have := r.isLt; omega⟩ : Fin 4) (⟨r.val % 2048, by omega⟩ : Fin 2048) k) :=
  shapeCast_apply x0 shapeCasts_S4x2048x4096_S8192x4096 (ix2 r k) _
    (by rewrite [Shape.rowMajor_val_three, Shape.rowMajor_val_two]
        show (r.val / 2048 * 2048 + r.val % 2048) * 4096 + k.val = r.val * 4096 + k.val
        have := r.isLt
        omega)

/-- The bias viewed as one row reads the bias. -/
theorem biasRow_apply (x3 : (⟨S4096, .f32⟩ : BufTy).Contents (Elt Ideal)) (n : Fin 4096) :
    shapeCast S1x4096 x3 shapeCasts_S4096_S1x4096 (ix2 (0 : Fin 1) n) = x3 (ix1 n) :=
  shapeCast_apply x3 shapeCasts_S4096_S1x4096 (ix2 (0 : Fin 1) n) (ix1 n)
    (by rewrite [Shape.rowMajor_val_one, Shape.rowMajor_val_two]
        show n.val = 0 * 4096 + n.val
        omega)

/-- The `8192 × 4096` result viewed as `4 × 2048 × 4096`: entry `(b, s, o)` is row `b * 2048 + s`, column `o`. -/
theorem unrows_apply (y : (⟨S8192x4096, .f32⟩ : BufTy).Contents (Elt Ideal)) (b : Fin 4) (s : Fin 2048) (o : Fin 4096) :
    shapeCast S4x2048x4096 y shapeCasts_S8192x4096_S4x2048x4096 (ix3 b s o)
      = y (ix2 (⟨b.val * 2048 + s.val, by have := b.isLt; have := s.isLt; omega⟩ : Fin 8192) o) :=
  shapeCast_apply y shapeCasts_S8192x4096_S4x2048x4096 (ix3 b s o) _
    (by rewrite [Shape.rowMajor_val_two, Shape.rowMajor_val_three]
        show (b.val * 2048 + s.val) * 4096 + o.val = (b.val * 2048 + s.val) * 4096 + o.val
        rfl)

end Cert.KernelIdeal.Prefix

end
-- ==== Proof.HostPrefix.lean ====
/-
  The arrays the kernel's region finds are the host's terms of Proof/HostTerms.lean of the arguments as launched:
  the dequantised weight, `x` as `8192 × 4096`, and the bias as one row.
-/
import proofs.«406813_j28630251995563_2_alg».proof.Proof.Gen.KernelIdeal.Frame
import proofs.«406813_j28630251995563_2_alg».proof.Proof.HostTerms
import Idealize.ShloMosaic.Lib.StableHlo.Run

noncomputable section

namespace Cert.KernelIdeal.Prefix

open Cert.KernelIdeal Cert.KernelIdeal.Gen
open Idealize.ShloMosaic Idealize.ShloMosaic.TcCoe Idealize.SL.Sem Idealize.ShloMosaic.StableHlo
open Idealize.ShloMosaic.ValueIdx Cert.Dequant
open scoped BigOperators

variable {F : FTy → Type} [FloatOps F]

variable (m : (ℓ : Loc nD τ sig) → Buf (Elt F) ℓ)

/-- The second window's array is the host's weight of the packed words and the scale as launched. -/
theorem V_weight (c : Dev nD) :
    (V m c main_v19 : (⟨S4096x4096, .bf16⟩ : BufTy).Contents (Elt F))
      = hostWeight (m ((c : Thread nD τ).loc main_arg1)) (m ((c : Thread nD τ).loc main_arg2)) := by
  show StableHlo.after hostOps0 (fun b => m (c, b)) (Proc.devRef .tc main_v19) = _
  after_results
  rfl

/-- The first window's array is `x` viewed as `8192 × 4096`. -/
theorem V_rows (c : Dev nD) :
    (V m c main_v21 : (⟨S8192x4096, .f32⟩ : BufTy).Contents (Elt F))
      = shapeCast S8192x4096 (m ((c : Thread nD τ).loc main_arg0)) shapeCasts_S4x2048x4096_S8192x4096 := by
  show StableHlo.after hostOps0 (fun b => m (c, b)) (Proc.devRef .tc main_v21) = _
  after_results
  rfl

/-- The third window's array is the bias as one row. -/
theorem V_bias (c : Dev nD) :
    (V m c main_v20 : (⟨S1x4096, .f32⟩ : BufTy).Contents (Elt F))
      = shapeCast S1x4096 (m ((c : Thread nD τ).loc main_arg3)) shapeCasts_S4096_S1x4096 := by
  show StableHlo.after hostOps0 (fun b => m (c, b)) (Proc.devRef .tc main_v20) = _
  after_results
  rfl

end Cert.KernelIdeal.Prefix

end
-- ==== Proof.KernelRun.lean ====
/-
  The kernel's run, read: its result is the layer of Proof/Spec.lean.

  After the region the host views the `8192 × 4096` array as `4 × 2048 × 4096`: entry `(b, s, o)` is row
  `b * 2048 + s`, column `o`. That row of `x` viewed as `8192 × 4096` is `x[b, s, :]`, the weight's row `o` is the
  specification's (Proof/HostTerms.lean), and the bias row's entry `o` is the bias: the entry is
  `(Σ_k x[b, s, k] * weight[o, k]) + bias[o]`.
-/
import proofs.«406813_j28630251995563_2_alg».proof.Proof.KernelBlocks
import proofs.«406813_j28630251995563_2_alg».proof.Proof.HostPrefix

noncomputable section

namespace Cert.KernelIdeal.KRun

open Cert.KernelIdeal Cert.KernelIdeal.Gen Cert.KernelIdeal.Blocks Cert.KernelIdeal.Prefix
open Idealize.ShloMosaic Idealize.ShloMosaic.TcCoe Idealize.SL.Sem Idealize.ShloMosaic.StableHlo
open Idealize.ShloMosaic.ValueIdx Cert.Dequant
open Idealize.ShloMosaic.Pipeline (Dat)
open scoped BigOperators

variable (m : (ℓ : Loc nD τ sig) → Buf (Elt Ideal) ℓ) (ρ : Dev nD → PrngReg)

/-- The `8192 × 4096` array viewed as `4 × 2048 × 4096` is the layer of the arguments as launched. -/
theorem viewed_eq (c : Dev nD) :
    shapeCast S4x2048x4096 (rowsOut (xarr m c) (warr m c) (barr m c)) shapeCasts_S8192x4096_S4x2048x4096
      = linear (m ((c : Thread nD τ).loc main_arg0)) (m ((c : Thread nD τ).loc main_arg1))
          (m ((c : Thread nD τ).loc main_arg2)) (m ((c : Thread nD τ).loc main_arg3)) := by
  funext i
  obtain ⟨b, s, o, rfl⟩ : ∃ (b : Fin 4) (s : Fin 2048) (o : Fin 4096), i = ix3 b s o := ⟨i 0, i 1, i 2, eq_ix3 i⟩
  rw [unrows_apply, rowsOut_ix2, linear_ix3]
  unfold rowsOutAt linearAt
  have hb : b.val < 4 := b.isLt
  have hs : s.val < 2048 := s.isLt
  refine congrArg₂ (· + ·) (Finset.sum_congr rfl fun k _ => ?_) ?_
  · have ex : xarr m c (ix2 (⟨b.val * 2048 + s.val, by omega⟩ : Fin 8192) k)
        = m ((c : Thread nD τ).loc main_arg0) (ix3 b s k) := by
      show V m c main_v21 _ = _
      rw [V_rows, rows_apply]
      refine congrArg (m ((c : Thread nD τ).loc main_arg0)) (funext fun a => Fin.ext ?_)
      match a with
      | ⟨0, _⟩ => show (b.val * 2048 + s.val) / 2048 = b.val; omega
      | ⟨1, _⟩ => show (b.val * 2048 + s.val) % 2048 = s.val; omega
      | ⟨2, _⟩ => rfl
    have ew : warr m c (ix2 o k)
        = weight (m ((c : Thread nD τ).loc main_arg1)) (m ((c : Thread nD τ).loc main_arg2) ix0) o k := by
      show V m c main_v19 _ = _
      rw [V_weight, hostWeight_apply]
    rw [ex, ew]
  · show V m c main_v20 _ = _
    rw [V_bias, biasRow_apply]

/-- What the host line after the region leaves in the result buffer. -/
theorem tail_eq (c : Dev nD) :
    Pipeline.afterTail₀ cfgs (dats m) 0 (V0 m) [hostOps1] c main_v23
      = shapeCast S4x2048x4096 (rowsOut (xarr m c) (warr m c) (barr m c)) shapeCasts_S8192x4096_S4x2048x4096 := by
  unfold Pipeline.afterTail₀
  show StableHlo.after hostOps1 _ (Proc.devRef .tc main_v23) = _
  after_results
  exact congrArg (fun y => shapeCast S4x2048x4096 y shapeCasts_S8192x4096_S4x2048x4096)
    ((Pipeline.withArrays_arr spec0 launch0.win.arr_inj c _ _ 3).trans (final m c))

/-- THE KERNEL'S RUN: every weakly fair execution terminates with the result buffer at the layer of the arguments as
    launched, and the arguments unchanged. -/
theorem run : θ_run defs (onTc (τ := τ) (main (F := Ideal))) ⟨m, fun _ => 0, ρ⟩ fun r => ∀ c : Dev nD,
      r.2.mem ((c.tc : Thread nD τ).loc main_v23)
        = linear (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v23 (Pipeline.mem_restRefs_of main_v23 (by decide) (by decide))).trans ((tail_eq m c).trans (viewed_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KRun

end
-- ==== Proof.lean ====
/-
  A weight-only int4 quantised linear layer, kernel against reference, over the exact reals.

  Both programs compute `y[b, s, o] = (Σ_k x[b, s, k] * weight[o, k]) + bias[o]` with
  `weight[o, k] = (field(o, k) - 8) * scale`, `field(o, k)` the 4-bit field of parity `k % 2` of packed word
  `o * 2048 + k / 2` (Proof/Spec.lean).
  The reference unpacks on the flat array, subtracts 8 as an integer, converts, and contracts with one `dot_general`
  (Proof/RefValue.lean, over the generated run of the reference read one operation at a time).
  The kernel unpacks row by row, converts and subtracts `8.0` as a float (the same real number: Proof/Nibble.lean),
  and runs a 64-point grid, each point multiplying 128 rows of `x` (viewed as `8192 × 4096`) by the resident weight
  and adding the bias row (Proof/Payload.lean for one point, Proof/KernelBlocks.lean for the whole array over the
  generated frame run, Proof/HostTerms.lean and Proof/HostPrefix.lean for the host lines around the region,
  Proof/KernelRun.lean for the run). The changes of float format are the identity at the exact reals, and no step
  uses distributivity or cancellation, so the inputs' finiteness is not used.
  The three frames are the generated ones; the idealization rewrote nothing, so `preserves` is trivial.
-/
import proofs.«406813_j28630251995563_2_alg».proof.Defs
import proofs.«406813_j28630251995563_2_alg».proof.Proof.Gen.Kernel
import proofs.«406813_j28630251995563_2_alg».proof.Proof.Gen.Kernel.Skeleton
import proofs.«406813_j28630251995563_2_alg».proof.Proof.Gen.Kernel.Launch
import proofs.«406813_j28630251995563_2_alg».proof.Proof.Gen.Kernel.Points
import proofs.«406813_j28630251995563_2_alg».proof.Proof.Gen.Kernel.Frame
import proofs.«406813_j28630251995563_2_alg».proof.Proof.Gen.KernelIdeal
import proofs.«406813_j28630251995563_2_alg».proof.Proof.Gen.KernelIdeal.Skeleton
import proofs.«406813_j28630251995563_2_alg».proof.Proof.Gen.KernelIdeal.Launch
import proofs.«406813_j28630251995563_2_alg».proof.Proof.Gen.KernelIdeal.Points
import proofs.«406813_j28630251995563_2_alg».proof.Proof.Gen.KernelIdeal.Frame
import proofs.«406813_j28630251995563_2_alg».proof.Proof.Gen.ReferenceIdeal
import proofs.«406813_j28630251995563_2_alg».proof.Proof.Gen.ReferenceIdeal.Run
import proofs.«406813_j28630251995563_2_alg».proof.Proof.Gen.ReferenceIdeal.Read
import proofs.«406813_j28630251995563_2_alg».proof.Proof.Gen.Pre_finite_inputs
import proofs.«406813_j28630251995563_2_alg».proof.Proof.RefValue
import proofs.«406813_j28630251995563_2_alg».proof.Proof.KernelRun
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both runs end with the result buffer at the layer of the arguments; the arguments agree, so the results do. -/
theorem algebraic : Cert.algebraic_KernelIdeal_ReferenceIdeal := by
  intro m ρ m' ρ' _ hagree
  refine ⟨fun c => Cert.Dequant.linear
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
